-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S32x1024x1024 : Shape := ⟨3, ![32, 1024, 1024]⟩
abbrev S1024x1024 : Shape := ⟨2, ![1024, 1024]⟩
abbrev S1024x2048 : Shape := ⟨2, ![1024, 2048]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024x2048 : S_.BroadcastsInDim S1024x2048 (![] : Fin 0 → Fin S1024x2048.rank)
  reducesTo_S1024x2048_S_d0_1 : S1024x2048.ReducesTo [0, 1] S_

variable [Facts]

def fn_part1 {F : FTy → Type} [FloatOps F] (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  main_v18

def fn {F : FTy → Type} [FloatOps F] (main_arg0 : FVec F S32x512x1024 .f32) (main_arg1 : FVec F S32x1024x1024 .f32) (main_arg2 : FVec F S1024x1024 .f32) (main_arg3 : FVec F S1024x2048 .f32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_v13 main_v16
-- ==== Kernel.lean ====
abbrev S32x512x1024 : Shape := ⟨3, ![32, 512, 1024]⟩
abbrev S32x1024x1024 : Shape := ⟨3, ![32, 1024, 1024]⟩
abbrev S1024x1024 : Shape := ⟨2, ![1024, 1024]⟩
abbrev S1024x2048 : Shape := ⟨2, ![1024, 2048]⟩
abbrev S1x128x1024 : Shape := ⟨3, ![1, 128, 1024]⟩
abbrev S1x1024x1024 : Shape := ⟨3, ![1, 1024, 1024]⟩
abbrev S128x1024 : Shape := ⟨2, ![128, 1024]⟩
abbrev S128 : Shape := ⟨1, ![128]⟩
abbrev S128x1 : Shape := ⟨2, ![128, 1]⟩
abbrev S128x2048 : Shape := ⟨2, ![128, 2048]⟩
abbrev S512x32x1024 : Shape := ⟨3, ![512, 32, 1024]⟩

abbrev nBuf : Space → Nat
  | .hbm => 10
  | .vmem => 10
  | .smem => 0
  | _ => 0

abbrev bufTy : (tb : Table) → Fin (tcTables nBuf tb) → BufTy
  | .hbm, ⟨0, _⟩ => ⟨S32x512x1024, .f32⟩
  | .hbm, ⟨1, _⟩ => ⟨S32x1024x1024, .f32⟩
  | .hbm, ⟨2, _⟩ => ⟨S1024x1024, .f32⟩
  | .hbm, ⟨3, _⟩ => ⟨S1024x2048, .f32⟩
  | .hbm, ⟨4, _⟩ => ⟨S1024x1024, .bf16⟩
  | .hbm, ⟨5, _⟩ => ⟨S1024x2048, .bf16⟩
  | .hbm, ⟨6, _⟩ => ⟨S32x512x1024, .f32⟩
  | .hbm, ⟨7, _⟩ => ⟨S32x512x1024, .f32⟩
  | .hbm, ⟨8, _⟩ => ⟨S512x32x1024, .f32⟩
  | .hbm, ⟨9, _⟩ => ⟨S512x32x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1024x1024, .bf16⟩
  | .local _ .vmem, ⟨5, _⟩ => ⟨S1024x2048, .bf16⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  reduces_S128x1024_S128 : S128x1024.Reduces [1] S128
  shapeCasts_S128_S128x1 : S128.ShapeCasts S128x1
  broadcasts_S128x1_S128x1024 : S128x1.Broadcasts S128x1024
  concatenates_S128x1024_S128x1024_S128x2048_d1 : Shape.Concatenates [S128x1024, S128x1024] S128x2048 1
  shapeCasts_S128x1024_S1x128x1024 : S128x1024.ShapeCasts S1x128x1024
  transposes_S32x512x1024_S512x32x1024_1_0_2 : S32x512x1024.Transposes [1, 0, 2] S512x32x1024
  dot_S128x1024_S1024x1024_S128x1024_1_1_0_0_n_n_wf : DotDims.WF S128x1024 S1024x1024 S128x1024 [1] [1] [0] [0] [] []
  dot_S128x1024_S1024x1024_S128x1024_1_0_0_1_n_n_wf : DotDims.WF S128x1024 S1024x1024 S128x1024 [1] [0] [0] [1] [] []
  dot_S128x2048_S1024x2048_S128x1024_1_1_0_0_n_n_wf : DotDims.WF S128x2048 S1024x2048 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S32x512x1024.size a
  hwx0_0 : ∀ i : grid0.Coords, EltTy.bits .f32 = 32 ∨ (Rect.block (s := S32x512x1024) S1x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .f32 = 32 ∨ (Rect.block (s := S32x1024x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x1024.size a ≤ S32x512x1024.size a
  hwx0_4 : ∀ i : grid0.Coords, EltTy.bits .f32 = 32 ∨ (Rect.block (s := S32x512x1024) S1x128x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x1024.size a ≤ S32x512x1024.size a
  hwx0_5 : ∀ i : grid0.Coords, EltTy.bits .f32 = 32 ∨ (Rect.block (s := S32x512x1024) S1x128x1024.size (cc0_transform_5 i) (hinb0_5 i)).WholeWords (EltTy.packing .f32)

variable [Facts₀]

def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x2048_S1024x2048_S128x1024_1_1_0_0_n_n : DotDims S128x2048 S1024x2048 S128x1024 where
  lhsContracting := [1]
  rhsContracting := [1]
  lhsNonContracting := [0]
  rhsNonContracting := [0]
  lhsBatch := []
  rhsBatch := []
  wf := dot_S128x2048_S1024x2048_S128x1024_1_1_0_0_n_n_wf

abbrev win0_0 : Pipeline.Window sig grid0 :=
  Pipeline.Window.ofSpec (Memref.whole main_arg0) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x128x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x128x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x512x1024 : Shape := ⟨3, ![32, 512, 1024]⟩
abbrev S32x1024x1024 : Shape := ⟨3, ![32, 1024, 1024]⟩
abbrev S1024x1024 : Shape := ⟨2, ![1024, 1024]⟩
abbrev S1024x2048 : Shape := ⟨2, ![1024, 2048]⟩
abbrev S_ : Shape := ⟨0, ![]⟩
abbrev S32x512 : Shape := ⟨2, ![32, 512]⟩
abbrev S32x512x1 : Shape := ⟨3, ![32, 512, 1]⟩
abbrev S32x512x2048 : Shape := ⟨3, ![32, 512, 2048]⟩
abbrev S512x32x1024 : Shape := ⟨3, ![512, 32, 1024]⟩

abbrev nBuf : Space → Nat
  | .hbm => 26
  | .vmem => 0
  | .smem => 0
  | _ => 0

abbrev bufTy : (tb : Table) → Fin (tcTables nBuf tb) → BufTy
  | .hbm, ⟨0, _⟩ => ⟨S32x512x1024, .f32⟩
  | .hbm, ⟨1, _⟩ => ⟨S32x1024x1024, .f32⟩
  | .hbm, ⟨2, _⟩ => ⟨S1024x1024, .f32⟩
  | .hbm, ⟨3, _⟩ => ⟨S1024x2048, .f32⟩
  | .hbm, ⟨4, _⟩ => ⟨S32x512x1024, .f32⟩
  | .hbm, ⟨5, _⟩ => ⟨S32x512x1024, .f32⟩
  | .hbm, ⟨6, _⟩ => ⟨S_, .f32⟩
  | .hbm, ⟨7, _⟩ => ⟨S32x512, .f32⟩
  | .hbm, ⟨8, _⟩ => ⟨S_, .f32⟩
  | .hbm, ⟨9, _⟩ => ⟨S32x512, .f32⟩
  | .hbm, ⟨10, _⟩ => ⟨S32x512, .f32⟩
  | .hbm, ⟨11, _⟩ => ⟨S32x512x1, .f32⟩
  | .hbm, ⟨12, _⟩ => ⟨S32x512x1024, .f32⟩
  | .hbm, ⟨13, _⟩ => ⟨S32x512x1024, .f32⟩
  | .hbm, ⟨14, _⟩ => ⟨S32x512x1024, .f32⟩
  | .hbm, ⟨15, _⟩ => ⟨S_, .f32⟩
  | .hbm, ⟨16, _⟩ => ⟨S32x512, .f32⟩
  | .hbm, ⟨17, _⟩ => ⟨S32x512x1, .f32⟩
  | .hbm, ⟨18, _⟩ => ⟨S32x512x1024, .f32⟩
  | .hbm, ⟨19, _⟩ => ⟨S32x512x1024, .f32⟩
  | .hbm, ⟨20, _⟩ => ⟨S32x512x1024, .f32⟩
  | .hbm, ⟨21, _⟩ => ⟨S32x512x2048, .f32⟩
  | .hbm, ⟨22, _⟩ => ⟨S32x512x1024, .f32⟩
  | .hbm, ⟨23, _⟩ => ⟨S32x512x1024, .f32⟩
  | .hbm, ⟨24, _⟩ => ⟨S512x32x1024, .f32⟩
  | .hbm, ⟨25, _⟩ => ⟨S512x32x1024, .f32⟩
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S32x512x1024_S32x512_d2 : S32x512x1024.ReducesTo [2] S32x512
  h_S_ : 0 < S_.numel
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S32x512x1_S32x512x1024_0_1_2 : S32x512x1.BroadcastsInDim S32x512x1024 (![0, 1, 2] : Fin 3 → Fin S32x512x1024.rank)
  concatenates_S32x512x1024_S32x512x1024_S32x512x2048_d2 : Shape.Concatenates [S32x512x1024, S32x512x1024] S32x512x2048 2
  transposes_S32x512x1024_S512x32x1024_1_0_2 : S32x512x1024.Transposes [1, 0, 2] S512x32x1024
  dot_S32x512x1024_S1024x1024_S32x512x1024_2_1_01_0_n_n_wf : DotDims.WF S32x512x1024 S1024x1024 S32x512x1024 [2] [1] [0, 1] [0] [] []
  dot_S32x512x1024_S32x1024x1024_S32x512x1024_2_2_1_1_0_0_wf : DotDims.WF S32x512x1024 S32x1024x1024 S32x512x1024 [2] [2] [1] [1] [0] [0]
  dot_S32x512x1024_S32x1024x1024_S32x512x1024_2_1_1_2_0_0_wf : DotDims.WF S32x512x1024 S32x1024x1024 S32x512x1024 [2] [1] [1] [2] [0] [0]
  dot_S32x512x2048_S1024x2048_S32x512x1024_2_1_01_0_n_n_wf : DotDims.WF S32x512x2048 S1024x2048 S32x512x1024 [2] [1] [0, 1] [0] [] []

variable [Facts₀]

def dot_S32x512x1024_S1024x1024_S32x512x1024_2_1_01_0_n_n : DotDims S32x512x1024 S1024x1024 S32x512x1024 where
  lhsContracting := [2]
  rhsContracting := [1]
  lhsNonContracting := [0, 1]
  rhsNonContracting := [0]
  lhsBatch := []
  rhsBatch := []
  wf := dot_S32x512x1024_S1024x1024_S32x512x1024_2_1_01_0_n_n_wf
def dot_S32x512x1024_S32x1024x1024_S32x512x1024_2_2_1_1_0_0 : DotDims S32x512x1024 S32x1024x1024 S32x512x1024 where
  lhsContracting := [2]
  rhsContracting := [2]
  lhsNonContracting := [1]
  rhsNonContracting := [1]
  lhsBatch := [0]
  rhsBatch := [0]
  wf := dot_S32x512x1024_S32x1024x1024_S32x512x1024_2_2_1_1_0_0_wf
def dot_S32x512x1024_S32x1024x1024_S32x512x1024_2_1_1_2_0_0 : DotDims S32x512x1024 S32x1024x1024 S32x512x1024 where
  lhsContracting := [2]
  rhsContracting := [1]
  lhsNonContracting := [1]
  rhsNonContracting := [2]
  lhsBatch := [0]
  rhsBatch := [0]
  wf := dot_S32x512x1024_S32x1024x1024_S32x512x1024_2_1_1_2_0_0_wf
def dot_S32x512x2048_S1024x2048_S32x512x1024_2_1_01_0_n_n : DotDims S32x512x2048 S1024x2048 S32x512x1024 where
  lhsContracting := [2]
  rhsContracting := [1]
  lhsNonContracting := [0, 1]
  rhsNonContracting := [0]
  lhsBatch := []
  rhsBatch := []
  wf := dot_S32x512x2048_S1024x2048_S32x512x1024_2_1_01_0_n_n_wf

class Facts : Prop extends Facts₀ where

variable [Facts]
-- ==== Proof.AttentionRow.lean ====
/-
  One query row of Luong "general" attention, over the extended reals, and the two arrays a whole batch of rows fills.

  A row `x` (a vector of 1024 numbers) is first sent through the input weights: `hidden e = ∑ d, x d · win e d`.
  Its score against source position `s` is the inner product with that position's context vector,
  `score s = ∑ d, hidden d · ctx s d`. The scores are turned into weights by a softmax that is stabilised the usual way:
  the row's maximum is taken (as a fold of `max` from the word both programs start from, joined once more with that
  word), subtracted, the exponential applied, and each exponential divided by their sum. The weights average the context
  vectors, `context d = ∑ s, weight s · ctx s d`; that average is laid beside the row itself (2048 numbers), sent
  through the output weights and squashed: `output q = tanh (∑ f, joined f · wout q f)`.

  Nothing here is evaluated: every sum is a `Finset` sum over the full index type, every operation the exact one of the
  extended reals, and the starting word of the maximum is kept as the bit pattern it is printed as.
-/
import Idealize.ShloMosaic.PureOps.Ideal
import Idealize.ShloMosaic.Lib.ValueIdx

noncomputable section

namespace Cert.Attention

open Idealize.ShloMosaic Idealize.ShloMosaic.ValueIdx

/-- The word a row's maximum starts from (the pattern of −∞), as printed; it is the same word wherever it occurs. -/
abbrev floorWord : EReal := Ideal.ofBits .f32 0xFF800000#32

section Row

variable (x : Fin 1024 → EReal) (win : Fin 1024 → Fin 1024 → EReal) (ctx : Fin 1024 → Fin 1024 → EReal)
  (wout : Fin 1024 → Fin 2048 → EReal)

/-- The row through the input weights. -/
def hidden (e : Fin 1024) : EReal := ∑ d : Fin 1024, x d * win e d

/-- Its inner product with the context vector at source position `s`. -/
def score (s : Fin 1024) : EReal := ∑ d : Fin 1024, hidden x win d * ctx s d

/-- The row's largest score. -/
def top : EReal := max floorWord (Finset.univ.fold max floorWord (score x win ctx))

/-- The exponential of a score, the largest one taken off. -/
def expo (s : Fin 1024) : EReal := Ideal.exp (score x win ctx s - top x win ctx)

/-- The sum of the row's exponentials. -/
def mass : EReal := ∑ s : Fin 1024, expo x win ctx s

/-- The softmax weight of source position `s`. -/
def weight (s : Fin 1024) : EReal := Ideal.div (expo x win ctx s) (mass x win ctx)

/-- The weighted average of the context vectors. -/
def context (d : Fin 1024) : EReal := ∑ s : Fin 1024, weight x win ctx s * ctx s d

/-- The average beside the row itself: the first 1024 entries the average, the last 1024 the row. -/
def joined (f : Fin 2048) : EReal :=
  if h : f.val < 1024 then context x win ctx ⟨f.val, h⟩ else x ⟨f.val - 1024, by have := f.isLt; omega⟩

/-- The row's attentional output at feature `q`. -/
def output (q : Fin 1024) : EReal := Ideal.tanh (∑ f : Fin 2048, joined x win ctx f * wout q f)

end Row

/-! ## The arrays of a whole batch -/

section Batch

variable (a0 : (⟨3, ![32, 512, 1024]⟩ : Shape).Idx → EReal) (a1 : (⟨3, ![32, 1024, 1024]⟩ : Shape).Idx → EReal)
  (a2 : (⟨2, ![1024, 1024]⟩ : Shape).Idx → EReal) (a3 : (⟨2, ![1024, 2048]⟩ : Shape).Idx → EReal)

/-- Query row `t` of batch entry `b`. -/
def rowOf (b : Fin 32) (t : Fin 512) : Fin 1024 → EReal := fun d => a0 (ix3 b t d)

/-- Batch entry `b`'s context vectors, one per source position. -/
def ctxOf (b : Fin 32) : Fin 1024 → Fin 1024 → EReal := fun s d => a1 (ix3 b s d)

/-- The input weights as a table. -/
def winOf : Fin 1024 → Fin 1024 → EReal := fun e d => a2 (ix2 e d)

/-- The output weights as a table. -/
def woutOf : Fin 1024 → Fin 2048 → EReal := fun q f => a3 (ix2 q f)

/-- Every row's softmax weights: entry (b, t, s). -/
def weights : (⟨3, ![32, 512, 1024]⟩ : Shape).Idx → EReal := fun i =>
  weight (rowOf a0 ⟨(i 0).val, (i 0).isLt⟩ ⟨(i 1).val, (i 1).isLt⟩) (winOf a2) (ctxOf a1 ⟨(i 0).val, (i 0).isLt⟩) ⟨(i 2).val, (i 2).isLt⟩

/-- Every row's attentional output: entry (b, t, q). -/
def outputs : (⟨3, ![32, 512, 1024]⟩ : Shape).Idx → EReal := fun i =>
  output (rowOf a0 ⟨(i 0).val, (i 0).isLt⟩ ⟨(i 1).val, (i 1).isLt⟩) (winOf a2) (ctxOf a1 ⟨(i 0).val, (i 0).isLt⟩) (woutOf a3) ⟨(i 2).val, (i 2).isLt⟩

theorem weights_ix3 (b : Fin 32) (t : Fin 512) (s : Fin 1024) :
    weights a0 a1 a2 (ix3 b t s) = weight (rowOf a0 b t) (winOf a2) (ctxOf a1 b) s := rfl

theorem outputs_ix3 (b : Fin 32) (t : Fin 512) (q : Fin 1024) :
    outputs a0 a1 a2 a3 (ix3 b t q) = output (rowOf a0 b t) (winOf a2) (ctxOf a1 b) (woutOf a3) q := rfl

end Batch

end Cert.Attention

end
-- ==== Proof.ReferenceRows.lean ====
/-
  The reference program, stage by stage, is the row functions of `AttentionRow`.

  Each stage of the reference is read at coordinates (b, t, ·): its two einsums that form the scores are the sums
  `hidden` and `score` of row (b, t) against batch entry b's context vectors; its max-reduce along the source axis,
  joined once more with the starting word, is `top`; subtract, exponentiate, sum and divide give `weight`; the third
  einsum is `context`; the concatenation along the feature axis is `joined` (a feature below 1024 falls in the
  average, one from 1024 on in the row itself); the last einsum and the hyperbolic tangent are `output`.
  The host's sum starts from the zero word, which is the number 0 and drops out.
-/
import proofs.«157884_j1580547969021_1_alg».proof.Proof.Gen.ReferenceIdeal.Read
import proofs.«157884_j1580547969021_1_alg».proof.Proof.AttentionRow
import Idealize.ShloMosaic.PureOps.Ideal.Laws
import Idealize.ShloMosaic.PureOps.Reduce
import Idealize.ShloMosaic.Lib.Pipeline.Value
import Idealize.ShloMosaic.Lib.ValueIdx

noncomputable section

namespace Cert.ReferenceIdeal.Rows

open Cert.ReferenceIdeal Cert.ReferenceIdeal.Gen Cert.ReferenceIdeal.Read Cert.Attention
open Idealize.ShloMosaic Idealize.ShloMosaic.ValueIdx

variable (a0 : (⟨S32x512x1024, .f32⟩ : BufTy).Contents (Elt Ideal)) (a1 : (⟨S32x1024x1024, .f32⟩ : BufTy).Contents (Elt Ideal))
  (a2 : (⟨S1024x1024, .f32⟩ : BufTy).Contents (Elt Ideal)) (a3 : (⟨S1024x2048, .f32⟩ : BufTy).Contents (Elt Ideal))

/-- The first einsum at (b, t, e): row (b, t) through the input weights. -/
theorem hidden_at (b : Fin 32) (t : Fin 512) (e : Fin 1024) :
    val_main_v0 (F := Ideal) a0 a2 (ix3 b t e) = hidden (rowOf a0 b t) (winOf a2) e := by
  rw [val_main_v0_apply]
  exact Finset.sum_congr rfl fun d _ => by
    have el : lidx_main_v0 (ix3 b t e) d = ix3 b t d := funext fun a => by
      match a with | ⟨0, _⟩ => rfl | ⟨1, _⟩ => rfl | ⟨2, _⟩ => rfl
    have er : ridx_main_v0 (ix3 b t e) d = ix2 e d := funext fun a => by
      match a with | ⟨0, _⟩ => rfl | ⟨1, _⟩ => rfl
    rw [el, er]; rfl

/-- The second einsum at (b, t, s): the inner product with source position s's context vector. -/
theorem score_at (b : Fin 32) (t : Fin 512) (s : Fin 1024) :
    val_main_v1 (F := Ideal) a0 a1 a2 (ix3 b t s) = score (rowOf a0 b t) (winOf a2) (ctxOf a1 b) s := by
  rw [val_main_v1_apply]
  exact Finset.sum_congr rfl fun d _ => by
    have el : lidx_main_v1 (ix3 b t s) d = ix3 b t d := funext fun a => by
      match a with | ⟨0, _⟩ => rfl | ⟨1, _⟩ => rfl | ⟨2, _⟩ => rfl
    have er : ridx_main_v1 (ix3 b t s) d = ix3 b s d := funext fun a => by
      match a with | ⟨0, _⟩ => rfl | ⟨1, _⟩ => rfl | ⟨2, _⟩ => rfl
    rw [el, er, hidden_at]; rfl

/-- The reduced index (b, t) with source position k put back is (b, t, k). -/
theorem lift_ix3 (h : S32x512x1024.Reduces [2] S32x512) (b : Fin 32) (t : Fin 512) (k : Fin (S32x512x1024.size 2)) :
    h.lift (ix2 b t) k = ix3 b t (⟨k.val, k.isLt⟩ : Fin 1024) := by
  funext c; apply Fin.ext
  fin_cases c <;> rfl

/-- The max-reduce at (b, t): the fold of `max` over the row's scores from the starting word. -/
theorem rowmax_at (b : Fin 32) (t : Fin 512) :
    val_main_v2 (F := Ideal) a0 a1 a2 (ix2 b t)
      = Finset.univ.fold max floorWord (score (rowOf a0 b t) (winOf a2) (ctxOf a1 b)) := by
  unfold val_main_v2
  have h : S32x512x1024.Reduces [2] S32x512 := by decide
  rw [Host.reduce_eq_fold_single FloatOps.maximumf _ _ reducesTo_S32x512x1024_S32x512_d2 h h_S_]
  have hf : (val_main_v1 (F := Ideal) a0 a1 a2 ∘ h.lift (ix2 b t))
      = fun k : Fin 1024 => score (rowOf a0 b t) (winOf a2) (ctxOf a1 b) k := funext fun k => by
    show val_main_v1 (F := Ideal) a0 a1 a2 (h.lift (ix2 b t) k) = _
    rw [lift_ix3, score_at]
    rfl
  exact congrArg (fun f => Finset.fold max floorWord f (Finset.univ : Finset (Fin 1024))) hf

/-- The row's largest score, as the reference forms it. -/
theorem top_at (b : Fin 32) (t : Fin 512) :
    val_main_v4 (F := Ideal) a0 a1 a2 (ix2 b t) = top (rowOf a0 b t) (winOf a2) (ctxOf a1 b) := by
  rw [val_main_v4_apply, val_main_v3_apply, val_main_cst_0_apply, rowmax_at]
  rfl

/-- The largest score spread back along the source axis. -/
theorem top_spread_at (b : Fin 32) (t : Fin 512) (s : Fin 1024) :
    val_main_v6 (F := Ideal) a0 a1 a2 (ix3 b t s) = top (rowOf a0 b t) (winOf a2) (ctxOf a1 b) := by
  rw [val_main_v6_apply, val_main_v5_apply]
  have e : idx_main_v5 (idx_main_v6 (ix3 b t s)) = ix2 b t := funext fun a => by
    match a with | ⟨0, _⟩ => rfl | ⟨1, _⟩ => rfl
  rw [e, top_at]

/-- The exponential at (b, t, s). -/
theorem expo_at (b : Fin 32) (t : Fin 512) (s : Fin 1024) :
    val_main_v8 (F := Ideal) a0 a1 a2 (ix3 b t s) = expo (rowOf a0 b t) (winOf a2) (ctxOf a1 b) s := by
  rw [val_main_v8_apply, val_main_v7_apply, score_at, top_spread_at]
  rfl

/-- The sum of the row's exponentials: the host's sum starts from the number 0. -/
theorem mass_at (b : Fin 32) (t : Fin 512) :
    val_main_v9 (F := Ideal) a0 a1 a2 (ix2 b t) = mass (rowOf a0 b t) (winOf a2) (ctxOf a1 b) := by
  rw [val_main_v9_apply, val_main_cst_1_apply]
  show Ideal.ofBits .f32 0x00000000#32 + _ = _
  rw [Ideal.ofBits_zero_f32, zero_add]
  exact Finset.sum_congr rfl fun k _ => by
    have e : idx_main_v9 (ix2 b t) k = ix3 b t k := funext fun a => by
      match a with | ⟨0, _⟩ => rfl | ⟨1, _⟩ => rfl | ⟨2, _⟩ => rfl
    rw [e, expo_at]

/-- The sum spread back along the source axis. -/
theorem mass_spread_at (b : Fin 32) (t : Fin 512) (s : Fin 1024) :
    val_main_v11 (F := Ideal) a0 a1 a2 (ix3 b t s) = mass (rowOf a0 b t) (winOf a2) (ctxOf a1 b) := by
  rw [val_main_v11_apply, val_main_v10_apply]
  have e : idx_main_v10 (idx_main_v11 (ix3 b t s)) = ix2 b t := funext fun a => by
    match a with | ⟨0, _⟩ => rfl | ⟨1, _⟩ => rfl
  rw [e, mass_at]

/-- The softmax weight at (b, t, s). -/
theorem weight_at (b : Fin 32) (t : Fin 512) (s : Fin 1024) :
    val_main_v12 (F := Ideal) a0 a1 a2 (ix3 b t s) = weight (rowOf a0 b t) (winOf a2) (ctxOf a1 b) s := by
  rw [val_main_v12_apply, expo_at, mass_spread_at]
  rfl

/-- The reference's softmax stage is the batch's weights. -/
theorem weights_eq : val_main_v12 (F := Ideal) a0 a1 a2 = weights a0 a1 a2 := by
  funext i
  obtain ⟨b, t, s, rfl⟩ : ∃ (b : Fin 32) (t : Fin 512) (s : Fin 1024), i = ix3 b t s := ⟨i 0, i 1, i 2, eq_ix3 i⟩
  rw [weight_at, weights_ix3]

/-- The third einsum at (b, t, d): the weighted average of the context vectors. -/
theorem context_at (b : Fin 32) (t : Fin 512) (d : Fin 1024) :
    val_main_v13 (F := Ideal) a0 a1 a2 (ix3 b t d) = context (rowOf a0 b t) (winOf a2) (ctxOf a1 b) d := by
  rw [val_main_v13_apply]
  exact Finset.sum_congr rfl fun s _ => by
    have el : lidx_main_v13 (ix3 b t d) s = ix3 b t s := funext fun a => by
      match a with | ⟨0, _⟩ => rfl | ⟨1, _⟩ => rfl | ⟨2, _⟩ => rfl
    have er : ridx_main_v13 (ix3 b t d) s = ix3 b s d := funext fun a => by
      match a with | ⟨0, _⟩ => rfl | ⟨1, _⟩ => rfl | ⟨2, _⟩ => rfl
    rw [el, er, weight_at]; rfl

/-- The concatenation at (b, t, f): the average below feature 1024, the row itself from there on. -/
theorem joined_at (b : Fin 32) (t : Fin 512) (f : Fin 2048) :
    val_main_v14 (F := Ideal) a0 a1 a2 (ix3 b t f) = joined (rowOf a0 b t) (winOf a2) (ctxOf a1 b) f := by
  unfold val_main_v14 joined
  by_cases hf : f.val < 1024
  · rw [dif_pos hf]
    rw [concatenate_pair_apply_left (t := S32x512x2048) (s₁ := S32x512x1024) (s₂ := S32x512x1024) (2 : Fin 3) _ _ concatenates_S32x512x1024_S32x512x1024_S32x512x2048_d2 (ix3 b t f) rfl
      (ix3 b t (⟨f.val, hf⟩ : Fin 1024)) (fun c => by match c with | ⟨0, _⟩ => rfl | ⟨1, _⟩ => rfl | ⟨2, _⟩ => rfl)]
    exact context_at a0 a1 a2 b t ⟨f.val, hf⟩
  · rw [dif_neg hf]
    have hlt : f.val - 1024 < 1024 := by have := f.isLt; omega
    rw [concatenate_pair_apply_right (t := S32x512x2048) (s₁ := S32x512x1024) (s₂ := S32x512x1024) (2 : Fin 3) _ _ concatenates_S32x512x1024_S32x512x1024_S32x512x2048_d2 (ix3 b t f) rfl rfl
      (ix3 b t (⟨f.val - 1024, hlt⟩ : Fin 1024))
      (fun c hc => by
        match c with
        | ⟨0, _⟩ => rfl
        | ⟨1, _⟩ => rfl
        | ⟨2, _⟩ => exact absurd rfl hc)
      (by show f.val - 1024 + 1024 = f.val; omega)]
    rfl

/-- The last einsum and the hyperbolic tangent at (b, t, q). -/
theorem output_at (b : Fin 32) (t : Fin 512) (q : Fin 1024) :
    val_main_v16 (F := Ideal) a0 a1 a2 a3 (ix3 b t q) = output (rowOf a0 b t) (winOf a2) (ctxOf a1 b) (woutOf a3) q := by
  rw [val_main_v16_apply, val_main_v15_apply]
  show Ideal.tanh _ = Ideal.tanh _
  refine congrArg Ideal.tanh (Finset.sum_congr rfl fun f _ => ?_)
  have el : lidx_main_v15 (ix3 b t q) f = ix3 b t f := funext fun a => by
    match a with | ⟨0, _⟩ => rfl | ⟨1, _⟩ => rfl | ⟨2, _⟩ => rfl
  have er : ridx_main_v15 (ix3 b t q) f = ix2 q f := funext fun a => by
    match a with | ⟨0, _⟩ => rfl | ⟨1, _⟩ => rfl
  rw [el, er, joined_at]; rfl

/-- The reference's last stage before its transposition is the batch's outputs. -/
theorem outputs_eq : val_main_v16 (F := Ideal) a0 a1 a2 a3 = outputs a0 a1 a2 a3 := by
  funext i
  obtain ⟨b, t, q, rfl⟩ : ∃ (b : Fin 32) (t : Fin 512) (q : Fin 1024), i = ix3 b t q := ⟨i 0, i 1, i 2, eq_ix3 i⟩
  rw [output_at, outputs_ix3]

end Cert.ReferenceIdeal.Rows

end
-- ==== Proof.KernelRows.lean ====
/-
  The kernel body's two stored values, read at an index, are the row functions of `AttentionRow`.

  At one grid point the body holds a tile of 128 query rows (`x0`), one batch entry's 1024 context vectors (`x1`) and the
  two weight tables (`x2`, `x3`). Its four matrix products into a zero accumulator are plain sums over the contracted
  index: rows against rows of the second operand for the hidden vector, the scores and the final projection, rows
  against columns for the weighted average. Changes of float format are the identity. The row maximum is the fold of
  `max` along the source axis joined once more with the starting word; it and the row's sum of exponentials are each
  spread back over the row through a column, which reads the column's entry for that row. The concatenation along the
  feature axis takes the average below 1024 and the query row from there on.
-/
import proofs.«157884_j1580547969021_1_alg».proof.Proof.Gen.KernelIdeal.Skeleton
import proofs.«157884_j1580547969021_1_alg».proof.Proof.AttentionRow
import Idealize.ShloMosaic.PureOps.Ideal.Laws
import Idealize.ShloMosaic.PureOps.Reduce
import Idealize.ShloMosaic.Lib.Pipeline.Value
import Idealize.ShloMosaic.Lib.ValueIdx
import Idealize.ShloMosaic.Lib.ValueLayout

noncomputable section

namespace Cert.KernelIdeal.Rows

open Cert.KernelIdeal Cert.KernelIdeal.Gen Cert.Attention
open Idealize.ShloMosaic Idealize.ShloMosaic.ValueIdx

/-! ## The three shapes of matrix product, read at an index -/

section RowsByRows

theorem lhsRR_0 (i : S128x1024.Idx) (q : dot_S128x1024_S1024x1024_S128x1024_1_1_0_0_n_n.contr.Idx) :
    (dot_S128x1024_S1024x1024_S128x1024_1_1_0_0_n_n.lhsIdx i q 0).val = (i 0).val := by
  unfold DotDims.lhsIdx
  rw [dif_neg (show ¬(0 : Fin S128x1024.rank) ∈ dot_S128x1024_S1024x1024_S128x1024_1_1_0_0_n_n.lhsBatch by decide), dif_pos (show (0 : Fin S128x1024.rank) ∈ dot_S128x1024_S1024x1024_S128x1024_1_1_0_0_n_n.lhsNonContracting by decide)]
  rfl
theorem lhsRR_1 (i : S128x1024.Idx) (q : dot_S128x1024_S1024x1024_S128x1024_1_1_0_0_n_n.contr.Idx) :
    (dot_S128x1024_S1024x1024_S128x1024_1_1_0_0_n_n.lhsIdx i q 1).val = (q ⟨0, by decide⟩).val :=
  dot_S128x1024_S1024x1024_S128x1024_1_1_0_0_n_n.lhsIdx_val_of_single rfl i q
theorem rhsRR_0 (i : S128x1024.Idx) (q : dot_S128x1024_S1024x1024_S128x1024_1_1_0_0_n_n.contr.Idx) :
    (dot_S128x1024_S1024x1024_S128x1024_1_1_0_0_n_n.rhsIdx i q 0).val = (i 1).val := by
  unfold DotDims.rhsIdx
  rw [dif_neg (show ¬(0 : Fin S1024x1024.rank) ∈ dot_S128x1024_S1024x1024_S128x1024_1_1_0_0_n_n.rhsBatch by decide), dif_pos (show (0 : Fin S1024x1024.rank) ∈ dot_S128x1024_S1024x1024_S128x1024_1_1_0_0_n_n.rhsNonContracting by decide)]
  rfl
theorem rhsRR_1 (i : S128x1024.Idx) (q : dot_S128x1024_S1024x1024_S128x1024_1_1_0_0_n_n.contr.Idx) :
    (dot_S128x1024_S1024x1024_S128x1024_1_1_0_0_n_n.rhsIdx i q 1).val = (q ⟨0, by decide⟩).val :=
  dot_S128x1024_S1024x1024_S128x1024_1_1_0_0_n_n.rhsIdx_val_of_single rfl i q

/-- Rows against rows into zero: entry (p, e) is the sum over k of `l (p, k) · r (e, k)`. -/
theorem matmulRR_apply (l : FVec Ideal S128x1024 .bf16) (r : FVec Ideal S1024x1024 .bf16) (p : Fin 128) (e : Fin 1024) :
    matmul dot_S128x1024_S1024x1024_S128x1024_1_1_0_0_n_n none l r (constant S128x1024 .f32 0x00000000#32) (ix2 p e)
      = ∑ k : Fin 1024, l (ix2 p k) * r (ix2 e k) := by
  simp only [matmul]
  rw [Ideal.matmul_constant_zero_apply, ← Equiv.sum_comp (ValueIdx.contrEquiv1 dot_S128x1024_S1024x1024_S128x1024_1_1_0_0_n_n 1024 rfl rfl).symm]
  refine Finset.sum_congr rfl fun k _ => ?_
  have hk := ValueIdx.contrEquiv1_symm_val dot_S128x1024_S1024x1024_S128x1024_1_1_0_0_n_n 1024 rfl rfl k
  have el : dot_S128x1024_S1024x1024_S128x1024_1_1_0_0_n_n.lhsIdx (ix2 p e) ((ValueIdx.contrEquiv1 dot_S128x1024_S1024x1024_S128x1024_1_1_0_0_n_n 1024 rfl rfl).symm k) = ix2 p k := funext fun a => Fin.ext (by
    match a with
    | ⟨0, _⟩ => exact lhsRR_0 _ _
    | ⟨1, _⟩ => exact (lhsRR_1 _ _).trans hk)
  have er : dot_S128x1024_S1024x1024_S128x1024_1_1_0_0_n_n.rhsIdx (ix2 p e) ((ValueIdx.contrEquiv1 dot_S128x1024_S1024x1024_S128x1024_1_1_0_0_n_n 1024 rfl rfl).symm k) = ix2 e k := funext fun a => Fin.ext (by
    match a with
    | ⟨0, _⟩ => exact rhsRR_0 _ _
    | ⟨1, _⟩ => exact (rhsRR_1 _ _).trans hk)
  rw [el, er]

end RowsByRows

section RowsByColumns

theorem lhsRC_0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
theorem lhsRC_1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
theorem rhsRC_0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q
theorem rhsRC_1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

/-- Rows against columns into zero: entry (p, d) is the sum over k of `l (p, k) · r (k, d)`. -/
theorem matmulRC_apply (l : FVec Ideal S128x1024 .bf16) (r : FVec Ideal S1024x1024 .bf16) (p : Fin 128) (d : Fin 1024) :
    matmul dot_S128x1024_S1024x1024_S128x1024_1_0_0_1_n_n none l r (constant S128x1024 .f32 0x00000000#32) (ix2 p d)
      = ∑ k : Fin 1024, l (ix2 p k) * r (ix2 k d) := by
  simp only [matmul]
  rw [Ideal.matmul_constant_zero_apply, ← Equiv.sum_comp (ValueIdx.contrEquiv1 dot_S128x1024_S1024x1024_S128x1024_1_0_0_1_n_n 1024 rfl rfl).symm]
  refine Finset.sum_congr rfl fun k _ => ?_
  have hk := ValueIdx.contrEquiv1_symm_val dot_S128x1024_S1024x1024_S128x1024_1_0_0_1_n_n 1024 rfl rfl k
  have el : dot_S128x1024_S1024x1024_S128x1024_1_0_0_1_n_n.lhsIdx (ix2 p d) ((ValueIdx.contrEquiv1 dot_S128x1024_S1024x1024_S128x1024_1_0_0_1_n_n 1024 rfl rfl).symm k) = ix2 p k := funext fun a => Fin.ext (by
    match a with
    | ⟨0, _⟩ => exact lhsRC_0 _ _
    | ⟨1, _⟩ => exact (lhsRC_1 _ _).trans hk)
  have er : dot_S128x1024_S1024x1024_S128x1024_1_0_0_1_n_n.rhsIdx (ix2 p d) ((ValueIdx.contrEquiv1 dot_S128x1024_S1024x1024_S128x1024_1_0_0_1_n_n 1024 rfl rfl).symm k) = ix2 k d := funext fun a => Fin.ext (by
    match a with
    | ⟨0, _⟩ => exact (rhsRC_0 _ _).trans hk
    | ⟨1, _⟩ => exact rhsRC_1 _ _)
  rw [el, er]

end RowsByColumns

section WideRowsByRows

theorem lhsWR_0 (i : S128x1024.Idx) (q : dot_S128x2048_S1024x2048_S128x1024_1_1_0_0_n_n.contr.Idx) :
    (dot_S128x2048_S1024x2048_S128x1024_1_1_0_0_n_n.lhsIdx i q 0).val = (i 0).val := by
  unfold DotDims.lhsIdx
  rw [dif_neg (show ¬(0 : Fin S128x2048.rank) ∈ dot_S128x2048_S1024x2048_S128x1024_1_1_0_0_n_n.lhsBatch by decide), dif_pos (show (0 : Fin S128x2048.rank) ∈ dot_S128x2048_S1024x2048_S128x1024_1_1_0_0_n_n.lhsNonContracting by decide)]
  rfl
theorem lhsWR_1 (i : S128x1024.Idx) (q : dot_S128x2048_S1024x2048_S128x1024_1_1_0_0_n_n.contr.Idx) :
    (dot_S128x2048_S1024x2048_S128x1024_1_1_0_0_n_n.lhsIdx i q 1).val = (q ⟨0, by decide⟩).val :=
  dot_S128x2048_S1024x2048_S128x1024_1_1_0_0_n_n.lhsIdx_val_of_single rfl i q
theorem rhsWR_0 (i : S128x1024.Idx) (q : dot_S128x2048_S1024x2048_S128x1024_1_1_0_0_n_n.contr.Idx) :
    (dot_S128x2048_S1024x2048_S128x1024_1_1_0_0_n_n.rhsIdx i q 0).val = (i 1).val := by
  unfold DotDims.rhsIdx
  rw [dif_neg (show ¬(0 : Fin S1024x2048.rank) ∈ dot_S128x2048_S1024x2048_S128x1024_1_1_0_0_n_n.rhsBatch by decide), dif_pos (show (0 : Fin S1024x2048.rank) ∈ dot_S128x2048_S1024x2048_S128x1024_1_1_0_0_n_n.rhsNonContracting by decide)]
  rfl
theorem rhsWR_1 (i : S128x1024.Idx) (q : dot_S128x2048_S1024x2048_S128x1024_1_1_0_0_n_n.contr.Idx) :
    (dot_S128x2048_S1024x2048_S128x1024_1_1_0_0_n_n.rhsIdx i q 1).val = (q ⟨0, by decide⟩).val :=
  dot_S128x2048_S1024x2048_S128x1024_1_1_0_0_n_n.rhsIdx_val_of_single rfl i q

/-- The wide product, rows against rows over 2048 features into zero: entry (p, q) is the sum over f of `l (p, f) · r (q, f)`. -/
theorem matmulWR_apply (l : FVec Ideal S128x2048 .bf16) (r : FVec Ideal S1024x2048 .bf16) (p : Fin 128) (q : Fin 1024) :
    matmul dot_S128x2048_S1024x2048_S128x1024_1_1_0_0_n_n none l r (constant S128x1024 .f32 0x00000000#32) (ix2 p q)
      = ∑ f : Fin 2048, l (ix2 p f) * r (ix2 q f) := by
  simp only [matmul]
  rw [Ideal.matmul_constant_zero_apply, ← Equiv.sum_comp (ValueIdx.contrEquiv1 dot_S128x2048_S1024x2048_S128x1024_1_1_0_0_n_n 2048 rfl rfl).symm]
  refine Finset.sum_congr rfl fun k _ => ?_
  have hk := ValueIdx.contrEquiv1_symm_val dot_S128x2048_S1024x2048_S128x1024_1_1_0_0_n_n 2048 rfl rfl k
  have el : dot_S128x2048_S1024x2048_S128x1024_1_1_0_0_n_n.lhsIdx (ix2 p q) ((ValueIdx.contrEquiv1 dot_S128x2048_S1024x2048_S128x1024_1_1_0_0_n_n 2048 rfl rfl).symm k) = ix2 p k := funext fun a => Fin.ext (by
    match a with
    | ⟨0, _⟩ => exact lhsWR_0 _ _
    | ⟨1, _⟩ => exact (lhsWR_1 _ _).trans hk)
  have er : dot_S128x2048_S1024x2048_S128x1024_1_1_0_0_n_n.rhsIdx (ix2 p q) ((ValueIdx.contrEquiv1 dot_S128x2048_S1024x2048_S128x1024_1_1_0_0_n_n 2048 rfl rfl).symm k) = ix2 q k := funext fun a => Fin.ext (by
    match a with
    | ⟨0, _⟩ => exact rhsWR_0 _ _
    | ⟨1, _⟩ => exact (rhsWR_1 _ _).trans hk)
  rw [el, er]

end WideRowsByRows

/-! ## A column spread back over its rows -/

/-- A vector of 128 numbers made a column and spread over 1024 lanes reads, at (p, s), the vector's entry p. -/
theorem spread_col {α : Type} (v : S128.Idx → α) (p : Fin 128) (s : Fin 1024) :
    broadcastTo S128x1024 (shapeCast S128x1 v shapeCasts_S128_S128x1) broadcasts_S128x1_S128x1024 (ix2 p s) = v (ix1 p) := by
  rw [broadcastTo_apply _ broadcasts_S128x1_S128x1024 (ix2 p s) (ix2 p (0 : Fin 1)) (fun a => by
    match a with
    | ⟨0, _⟩ => show p.val = if (128 : Nat) = 1 then 0 else p.val; rw [if_neg (by decide)]
    | ⟨1, _⟩ => show 0 = if (1 : Nat) = 1 then 0 else s.val; rw [if_pos rfl])]
  exact shapeCast_apply v shapeCasts_S128_S128x1 (ix2 p (0 : Fin 1)) (ix1 p) (by
    rw [Shape.rowMajor_val_one, Shape.rowMajor_val_two]
    show p.val = p.val * 1 + 0
    omega)

/-! ## The body's values, stage by stage -/

section Body

variable (x0 : Vec Ideal S1x128x1024 .f32) (x1 : Vec Ideal S1x1024x1024 .f32) (x2 : Vec Ideal S1024x1024 .bf16)
  (x3 : Vec Ideal S1024x2048 .bf16)

/-- Query row p of the tile. -/
abbrev qrow (p : Fin 128) : Fin 1024 → EReal := fun d => x0 (ix3 (0 : Fin 1) p d)
/-- The context vectors of the batch entry the tile belongs to. -/
abbrev ctab : Fin 1024 → Fin 1024 → EReal := fun s d => x1 (ix3 (0 : Fin 1) s d)
/-- The input weights. -/
abbrev wintab : Fin 1024 → Fin 1024 → EReal := fun e d => x2 (ix2 e d)
/-- The output weights. -/
abbrev wouttab : Fin 1024 → Fin 2048 → EReal := fun q f => x3 (ix2 q f)

/-- The tile of query rows as a matrix. -/
theorem tile_at (p : Fin 128) (d : Fin 1024) : k0_pay2 x0 (ix2 p d) = x0 (ix3 (0 : Fin 1) p d) := by
  show shapeCast S128x1024 x0 shapeCasts_S1x128x1024_S128x1024 (ix2 p d) = _
  exact shapeCast_1ab_ab_apply x0 _ p d

/-- The context vectors as a matrix. -/
theorem ctx_at (s : Fin 1024) (d : Fin 1024) : k0_pay3 x1 (ix2 s d) = x1 (ix3 (0 : Fin 1) s d) := by
  show shapeCast S1024x1024 x1 shapeCasts_S1x1024x1024_S1024x1024 (ix2 s d) = _
  exact shapeCast_1ab_ab_apply x1 _ s d

/-- The tile through the input weights. -/
def hid : FVec Ideal S128x1024 .f32 :=
  matmul dot_S128x1024_S1024x1024_S128x1024_1_1_0_0_n_n none (k0_pay2 x0) (shapeCast S1024x1024 x2 shapeCasts_S1024x1024_S1024x1024 : FVec Ideal S1024x1024 .bf16) (constant S128x1024 .f32 0x00000000#32)

theorem hid_at (p : Fin 128) (e : Fin 1024) : hid x0 x2 (ix2 p e) = hidden (qrow x0 p) (wintab x2) e := by
  unfold hid
  rw [matmulRR_apply]
  exact Finset.sum_congr rfl fun k _ => by rw [tile_at, shapeCast_self]

/-- The scores of the tile's rows against every source position. -/
def sco : FVec Ideal S128x1024 .f32 :=
  matmul dot_S128x1024_S1024x1024_S128x1024_1_1_0_0_n_n none (truncf .bf16 (hid x0 x2) bitsLt_bf16_f32) (k0_pay3 x1) (constant S128x1024 .f32 0x00000000#32)

theorem sco_at (p : Fin 128) (s : Fin 1024) : sco x0 x1 x2 (ix2 p s) = score (qrow x0 p) (wintab x2) (ctab x1) s := by
  unfold sco
  rw [matmulRR_apply]
  exact Finset.sum_congr rfl fun k _ => by rw [truncf_apply, hid_at, ctx_at]

/-- Each row's largest score. -/
def rowtop : FVec Ideal S128 .f32 :=
  maximumf (broadcast S128 (Scalar.ofBits .f32 0xFF800000#32))
    (multiReduction .maximumf [1] S128 (sco x0 x1 x2) 0xFF800000#32 reduces_S128x1024_S128 (.inl rfl) rfl)

/-- The reduced index p with source position k put back is (p, k). -/
theorem lift_ix2 (p : Fin 128) (k : Fin (S128x1024.size 1)) :
    reduces_S128x1024_S128.lift (ix1 p) k = ix2 p (⟨k.val, k.isLt⟩ : Fin 1024) := by
  funext c; apply Fin.ext
  fin_cases c <;> rfl

theorem rowtop_at (p : Fin 128) : rowtop x0 x1 x2 (ix1 p) = top (qrow x0 p) (wintab x2) (ctab x1) := by
  unfold rowtop
  show max floorWord (multiReduction .maximumf [1] S128 (sco x0 x1 x2) 0xFF800000#32 reduces_S128x1024_S128 (.inl rfl) rfl (ix1 p)) = _
  refine (congrArg (max floorWord) (Ideal.multiReduction_maximumf_single (sco x0 x1 x2) 0xFF800000#32 reduces_S128x1024_S128 (.inl rfl) rfl (ix1 p))).trans ?_
  have hf : (sco x0 x1 x2 ∘ reduces_S128x1024_S128.lift (ix1 p))
      = fun k : Fin 1024 => score (qrow x0 p) (wintab x2) (ctab x1) k := funext fun k => by
    show sco x0 x1 x2 (reduces_S128x1024_S128.lift (ix1 p) k) = _
    rw [lift_ix2, sco_at]
    rfl
  exact congrArg (fun f => max floorWord (Finset.fold max floorWord f (Finset.univ : Finset (Fin 1024)))) hf

/-- The exponentials, each row's largest score taken off. -/
def expos : FVec Ideal S128x1024 .f32 :=
  exp (subf (sco x0 x1 x2) (broadcastTo S128x1024 (shapeCast S128x1 (rowtop x0 x1 x2) shapeCasts_S128_S128x1) broadcasts_S128x1_S128x1024))

theorem expos_at (p : Fin 128) (s : Fin 1024) : expos x0 x1 x2 (ix2 p s) = expo (qrow x0 p) (wintab x2) (ctab x1) s := by
  unfold expos
  show Ideal.exp (sco x0 x1 x2 (ix2 p s) - broadcastTo S128x1024 (shapeCast S128x1 (rowtop x0 x1 x2) shapeCasts_S128_S128x1) broadcasts_S128x1_S128x1024 (ix2 p s)) = _
  rw [sco_at, spread_col, rowtop_at]
  rfl

/-- Each row's sum of exponentials. -/
def rowmass : FVec Ideal S128 .f32 :=
  multiReduction .add [1] S128 (expos x0 x1 x2) 0x00000000#32 reduces_S128x1024_S128 (.inl rfl) rfl

theorem rowmass_at (p : Fin 128) : rowmass x0 x1 x2 (ix1 p) = mass (qrow x0 p) (wintab x2) (ctab x1) := by
  unfold rowmass
  refine (Ideal.multiReduction_add_single (expos x0 x1 x2) 0x00000000#32 reduces_S128x1024_S128 (.inl rfl) rfl (ix1 p)).trans ?_
  exact Finset.sum_congr rfl fun k _ => by
    rw [lift_ix2, expos_at]
    rfl

/-- The first stored value is the exponentials over their row sums. -/
theorem pay4_eq : k0_pay4 x0 x1 x2
    = divf (expos x0 x1 x2) (broadcastTo S128x1024 (shapeCast S128x1 (rowmass x0 x1 x2) shapeCasts_S128_S128x1) broadcasts_S128x1_S128x1024) := rfl

/-- The softmax weights of the tile's rows. -/
theorem weight_at (p : Fin 128) (s : Fin 1024) :
    k0_pay4 x0 x1 x2 (ix2 p s) = weight (qrow x0 p) (wintab x2) (ctab x1) s := by
  rw [pay4_eq]
  show Ideal.div (expos x0 x1 x2 (ix2 p s)) (broadcastTo S128x1024 (shapeCast S128x1 (rowmass x0 x1 x2) shapeCasts_S128_S128x1) broadcasts_S128x1_S128x1024 (ix2 p s)) = _
  rw [expos_at, spread_col, rowmass_at]
  rfl

/-- The weighted averages of the context vectors. -/
def avg : FVec Ideal S128x1024 .f32 :=
  matmul dot_S128x1024_S1024x1024_S128x1024_1_0_0_1_n_n none (truncf .bf16 (k0_pay4 x0 x1 x2) bitsLt_bf16_f32) (k0_pay3 x1) (constant S128x1024 .f32 0x00000000#32)

theorem avg_at (p : Fin 128) (d : Fin 1024) : avg x0 x1 x2 (ix2 p d) = context (qrow x0 p) (wintab x2) (ctab x1) d := by
  unfold avg
  rw [matmulRC_apply]
  exact Finset.sum_congr rfl fun k _ => by rw [truncf_apply, weight_at, ctx_at]

/-- The averages beside the query rows. -/
def side : FVec Ideal S128x2048 .bf16 :=
  concatenate S128x2048 1 [⟨S128x1024, truncf .bf16 (avg x0 x1 x2) bitsLt_bf16_f32⟩, ⟨S128x1024, k0_pay2 x0⟩] concatenates_S128x1024_S128x1024_S128x2048_d1

theorem side_at (p : Fin 128) (f : Fin 2048) : side x0 x1 x2 (ix2 p f) = joined (qrow x0 p) (wintab x2) (ctab x1) f := by
  unfold side joined
  by_cases hf : f.val < 1024
  · rw [dif_pos hf]
    rw [concatenate_pair_apply_left (t := S128x2048) (s₁ := S128x1024) (s₂ := S128x1024) (1 : Fin 2) _ _ concatenates_S128x1024_S128x1024_S128x2048_d1 (ix2 p f) rfl
      (ix2 p (⟨f.val, hf⟩ : Fin 1024)) (fun c => by match c with | ⟨0, _⟩ => rfl | ⟨1, _⟩ => rfl)]
    rw [truncf_apply]
    exact avg_at x0 x1 x2 p ⟨f.val, hf⟩
  · rw [dif_neg hf]
    have hlt : f.val - 1024 < 1024 := by have := f.isLt; omega
    rw [concatenate_pair_apply_right (t := S128x2048) (s₁ := S128x1024) (s₂ := S128x1024) (1 : Fin 2) _ _ concatenates_S128x1024_S128x1024_S128x2048_d1 (ix2 p f) rfl rfl
      (ix2 p (⟨f.val - 1024, hlt⟩ : Fin 1024))
      (fun c hc => by
        match c with
        | ⟨0, _⟩ => rfl
        | ⟨1, _⟩ => exact absurd rfl hc)
      (by show f.val - 1024 + 1024 = f.val; omega)]
    exact tile_at x0 p ⟨f.val - 1024, hlt⟩

/-- The second stored value is the hyperbolic tangent of the wide product, as a one-tile block. -/
theorem pay5_eq : k0_pay5 x0 x1 x2 x3
    = shapeCast S1x128x1024 (tanh (matmul dot_S128x2048_S1024x2048_S128x1024_1_1_0_0_n_n none (side x0 x1 x2)
        (shapeCast S1024x2048 x3 shapeCasts_S1024x2048_S1024x2048 : FVec Ideal S1024x2048 .bf16) (constant S128x1024 .f32 0x00000000#32))) shapeCasts_S128x1024_S1x128x1024 := rfl

/-- The attentional outputs of the tile's rows. -/
theorem output_at (u : Fin 1) (p : Fin 128) (q : Fin 1024) :
    k0_pay5 x0 x1 x2 x3 (ix3 u p q) = output (qrow x0 p) (wintab x2) (ctab x1) (wouttab x3) q := by
  rw [pay5_eq, shapeCast_ab_1ab_apply]
  show Ideal.tanh (matmul dot_S128x2048_S1024x2048_S128x1024_1_1_0_0_n_n none (side x0 x1 x2)
        (shapeCast S1024x2048 x3 shapeCasts_S1024x2048_S1024x2048 : FVec Ideal S1024x2048 .bf16) (constant S128x1024 .f32 0x00000000#32) (ix2 p q)) = Ideal.tanh _
  refine congrArg Ideal.tanh ?_
  rw [matmulWR_apply]
  exact Finset.sum_congr rfl fun f _ => by rw [side_at, shapeCast_self]

/-- The softmax weights as the one-tile block the body stores. -/
theorem weight_block_at (u : Fin 1) (p : Fin 128) (s : Fin 1024) :
    k0_pay1 (k0_pay4 x0 x1 x2) (ix3 u p s) = weight (qrow x0 p) (wintab x2) (ctab x1) s := by
  show shapeCast S1x128x1024 (k0_pay4 x0 x1 x2) shapeCasts_S128x1024_S1x128x1024 (ix3 u p s) = _
  rw [shapeCast_ab_1ab_apply, weight_at]

end Body

end Cert.KernelIdeal.Rows

end
-- ==== Proof.KernelArrays.lean ====
/-
  The two arrays the kernel region leaves, and the program's two results.

  Grid point (b, j) of the 32 × 4 grid holds query rows 128·j … 128·j + 127 of batch entry b, that entry's context
  vectors whole, and both weight tables whole; it writes back the same rows of the two output arrays. So what a point
  writes back is its block of the batch's `outputs` and `weights`, formed from the arrays as the region finds them:
  the queries and contexts as launched, the weight tables after the change of float format that precedes the region,
  which changes no number. The 128 blocks tile each output array (the point that covers row r of entry b is
  (b, r / 128)), so after the region each array IS that function of the arguments. The program's results are these two
  arrays with their first two axes exchanged.
-/
import proofs.«157884_j1580547969021_1_alg».proof.Proof.Gen.KernelIdeal.Frame
import proofs.«157884_j1580547969021_1_alg».proof.Proof.KernelRows
import Idealize.ShloMosaic.Lib.Pipeline.Value
import Idealize.ShloMosaic.Lib.StableHlo.Run

set_option maxRecDepth 16384

noncomputable section

namespace Cert.KernelIdeal.Arrays

open Cert.KernelIdeal Cert.KernelIdeal.Gen Cert.KernelIdeal.Rows Cert.Attention
open Idealize.ShloMosaic Idealize.ShloMosaic.TcCoe Idealize.ShloMosaic.ValueIdx Idealize.SL.Sem
open Idealize.ShloMosaic.Pipeline (Dat Cfg Window)

/-! ## One tile's values from the arrays it was cut from -/

section Tile

variable (x0 : Vec Ideal S1x128x1024 .f32) (x1 : Vec Ideal S1x1024x1024 .f32) (x2 : Vec Ideal S1024x1024 .bf16)
  (x3 : Vec Ideal S1024x2048 .bf16)
  (a0 : S32x512x1024.Idx → EReal) (a1 : S32x1024x1024.Idx → EReal) (a2 : S1024x1024.Idx → EReal) (a3 : S1024x2048.Idx → EReal)
  (b : Fin 32) (r : Fin 128 → Fin 512)

/-- If the tile's rows are rows `r p` of batch entry b, its context vectors entry b's and its tables the arrays', the
    stored weights are the batch's weights at those rows. -/
theorem weights_of_tile (h0 : ∀ (p : Fin 128) (d : Fin 1024), x0 (ix3 (0 : Fin 1) p d) = a0 (ix3 b (r p) d))
    (h1 : ∀ (s d : Fin 1024), x1 (ix3 (0 : Fin 1) s d) = a1 (ix3 b s d))
    (h2 : ∀ (e d : Fin 1024), x2 (ix2 e d) = a2 (ix2 e d)) (u : Fin 1) (p : Fin 128) (s : Fin 1024) :
    k0_pay1 (k0_pay4 x0 x1 x2) (ix3 u p s) = weights a0 a1 a2 (ix3 b (r p) s) := by
  rw [weight_block_at, weights_ix3]
  have e0 : qrow x0 p = rowOf a0 b (r p) := funext fun d => h0 p d
  have e1 : ctab x1 = ctxOf a1 b := funext fun s => funext fun d => h1 s d
  have e2 : wintab x2 = winOf a2 := funext fun e => funext fun d => h2 e d
  rw [e0, e1, e2]

/-- Likewise the stored outputs. -/
theorem outputs_of_tile (h0 : ∀ (p : Fin 128) (d : Fin 1024), x0 (ix3 (0 : Fin 1) p d) = a0 (ix3 b (r p) d))
    (h1 : ∀ (s d : Fin 1024), x1 (ix3 (0 : Fin 1) s d) = a1 (ix3 b s d))
    (h2 : ∀ (e d : Fin 1024), x2 (ix2 e d) = a2 (ix2 e d))
    (h3 : ∀ (q : Fin 1024) (f : Fin 2048), x3 (ix2 q f) = a3 (ix2 q f)) (u : Fin 1) (p : Fin 128) (q : Fin 1024) :
    k0_pay5 x0 x1 x2 x3 (ix3 u p q) = outputs a0 a1 a2 a3 (ix3 b (r p) q) := by
  rw [output_at, outputs_ix3]
  have e0 : qrow x0 p = rowOf a0 b (r p) := funext fun d => h0 p d
  have e1 : ctab x1 = ctxOf a1 b := funext fun s => funext fun d => h1 s d
  have e2 : wintab x2 = winOf a2 := funext fun e => funext fun d => h2 e d
  have e3 : wouttab x3 = woutOf a3 := funext fun q => funext fun f => h3 q f
  rw [e0, e1, e2, e3]

end Tile

/-! ## The grid's blocks -/

section Grid

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- Row p of the j-th tile of 128 rows. -/
def tileRow (j : Fin 4) (p : Fin 128) : Fin 512 := ⟨j.val * 128 + p.val, by have := j.isLt; have := p.isLt; omega⟩

/-- The printed index maps over the grid: the queries' window and both outputs' move together, over a batch entry and a
    tile of rows; the contexts' window follows the batch entry only; the weight tables stay. -/
theorem idx_facts : ∀ t : Fin cfg0.N,
    win0_0.index t (0 : Fin 3) = win0_5.index t (0 : Fin 3) ∧ win0_0.index t (1 : Fin 3) = win0_5.index t (1 : Fin 3) ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = win0_5.index t (0 : Fin 3) ∧ win0_4.index t (1 : Fin 3) = win0_5.index t (1 : Fin 3) ∧ win0_4.index t (2 : Fin 3) = 0
    ∧ win0_5.index t (0 : Fin 3) < 32 ∧ win0_5.index t (1 : Fin 3) < 4 ∧ win0_5.index t (2 : Fin 3) = 0 :=
  (by decide +kernel : ∀ t : Fin grid0.N, _)

/-- Every (batch entry, tile) pair is some grid point's. -/
theorem idx_onto : ∀ (b : Fin 32) (j : Fin 4), ∃ t : Fin cfg0.N, win0_5.index t (0 : Fin 3) = b.val ∧ win0_5.index t (1 : Fin 3) = j.val :=
  (by decide +kernel : ∀ (b : Fin 32) (j : Fin 4), ∃ t : Fin grid0.N, win0_5.index t (0 : Fin 3) = b.val ∧ win0_5.index t (1 : Fin 3) = j.val)

/-- The queries' block at a point of batch entry b and tile j: rows `tileRow j ·` of entry b. -/
theorem queries_at (c : Dev nD) (t : Fin cfg0.N) (b : Fin 32) (j : Fin 4)
    (hb : win0_5.index t (0 : Fin 3) = b.val) (hj : win0_5.index t (1 : Fin 3) = j.val) (p : Fin 128) (d : Fin 1024) :
    (iblk m c 0 t : Vec Ideal S1x128x1024 .f32) (ix3 (0 : Fin 1) p d)
      = (V m c main_arg0 : S32x512x1024.Idx → EReal) (ix3 b (tileRow j p) d) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * 0 = b.val; omega
  | ⟨1, _⟩ => show win0_0.index t (1 : Fin 3) * 128 + 1 * p.val = j.val * 128 + p.val; omega
  | ⟨2, _⟩ => show win0_0.index t (2 : Fin 3) * 1024 + 1 * d.val = d.val; omega

/-- The contexts' block at such a point: entry b's context vectors. -/
theorem contexts_at (c : Dev nD) (t : Fin cfg0.N) (b : Fin 32)
    (hb : win0_5.index t (0 : Fin 3) = b.val) (s d : Fin 1024) :
    (iblk m c 1 t : Vec Ideal S1x1024x1024 .f32) (ix3 (0 : Fin 1) s d)
      = (V m c main_arg1 : S32x1024x1024.Idx → EReal) (ix3 b s d) := by
  obtain ⟨-, -, -, e0, e1, e2, -⟩ := idx_facts t
  unfold iblk
  rw [View.read_apply]
  show V m c main_arg1 _ = V m c main_arg1 _
  congr 1
  funext a
  apply Fin.ext
  match a with
  | ⟨0, _⟩ => show win0_1.index t (0 : Fin 3) * 1 + 1 * 0 = b.val; omega
  | ⟨1, _⟩ => show win0_1.index t (1 : Fin 3) * 1024 + 1 * s.val = s.val; omega
  | ⟨2, _⟩ => show win0_1.index t (2 : Fin 3) * 1024 + 1 * d.val = d.val; omega

/-- The input weights' block is the whole table. -/
theorem win_at (c : Dev nD) (t : Fin cfg0.N) (e d : Fin 1024) :
    (iblk m c 2 t : Vec Ideal S1024x1024 .bf16) (ix2 e d) = (V m c main_v0 : S1024x1024.Idx → EReal) (ix2 e d) := by
  obtain ⟨-, -, -, -, -, -, e0, e1, -⟩ := idx_facts t
  unfold iblk
  rw [View.read_apply]
  show V m c main_v0 _ = V m c main_v0 _
  congr 1
  funext a
  apply Fin.ext
  match a with
  | ⟨0, _⟩ => show win0_2.index t (0 : Fin 2) * 1024 + 1 * e.val = e.val; omega
  | ⟨1, _⟩ => show win0_2.index t (1 : Fin 2) * 1024 + 1 * d.val = d.val; omega

/-- The output weights' block is the whole table. -/
theorem wout_at (c : Dev nD) (t : Fin cfg0.N) (q : Fin 1024) (f : Fin 2048) :
    (iblk m c 3 t : Vec Ideal S1024x2048 .bf16) (ix2 q f) = (V m c main_v1 : S1024x2048.Idx → EReal) (ix2 q f) := by
  obtain ⟨-, -, -, -, -, -, -, -, e0, e1, -⟩ := idx_facts t
  unfold iblk
  rw [View.read_apply]
  show V m c main_v1 _ = V m c main_v1 _
  congr 1
  funext a
  apply Fin.ext
  match a with
  | ⟨0, _⟩ => show win0_3.index t (0 : Fin 2) * 1024 + 1 * q.val = q.val; omega
  | ⟨1, _⟩ => show win0_3.index t (1 : Fin 2) * 2048 + 1 * f.val = f.val; omega

end Grid

/-! ## What the region leaves, and the program's results -/

section Run

variable (m : (ℓ : Loc nD τ sig) → Buf (Elt Ideal) ℓ) (ρ : Dev nD → PrngReg)

/-- The batch's softmax weights, of the arrays as the region finds them. -/
abbrev weightsIn (c : Dev nD) : S32x512x1024.Idx → EReal :=
  weights (V m c main_arg0 : S32x512x1024.Idx → EReal) (V m c main_arg1 : S32x1024x1024.Idx → EReal) (V m c main_v0 : S1024x1024.Idx → EReal)

/-- The batch's attentional outputs, of the arrays as the region finds them. -/
abbrev outputsIn (c : Dev nD) : S32x512x1024.Idx → EReal :=
  outputs (V m c main_arg0 : S32x512x1024.Idx → EReal) (V m c main_arg1 : S32x1024x1024.Idx → EReal) (V m c main_v0 : S1024x1024.Idx → EReal)
    (V m c main_v1 : S1024x2048.Idx → EReal)

/-- What a point writes back to the weights' array is its block of the batch's weights. -/
theorem flushed_weights (c : Dev nD) (t : Fin cfg0.N) :
    (dats m 0 c).flushed 5 t = ((cfg0.win 5).blk t).view.read (Elt Ideal) (weightsIn m c) := by
  show (cfg0.win 5).cut (grid0.coords t) ((dats m 0 c).after 5 t) = _
  rw [after0_5]
  unfold out0_5
  rw [View.canon_unit_zero hz3]
  simp only [View.ld_unit_zero (S := S1x128x1024) hz3, View.ld_unit_zero (S := S1x1024x1024) hz3, View.ld_unit_zero (S := S1024x1024) hz2]
  obtain ⟨-, -, -, -, -, -, -, -, -, -, -, -, -, hb, hj, h2⟩ := idx_facts t
  funext y
  obtain ⟨u, p, s, rfl⟩ : ∃ (u : Fin 1) (p : Fin 128) (s : Fin 1024), y = ix3 u p s := ⟨y 0, y 1, y 2, eq_ix3 y⟩
  have hu : u.val = 0 := by have := u.isLt; omega
  have hemb : ((cfg0.win 5).blk t).view.emb (ix3 u p s)
      = ix3 (⟨win0_5.index t (0 : Fin 3), hb⟩ : Fin 32) (tileRow ⟨win0_5.index t (1 : Fin 3), hj⟩ p) s := by
    funext a
    apply Fin.ext
    match a with
    | ⟨0, _⟩ => show win0_5.index t (0 : Fin 3) * 1 + 1 * u.val = win0_5.index t (0 : Fin 3); omega
    | ⟨1, _⟩ => show win0_5.index t (1 : Fin 3) * 128 + 1 * p.val = win0_5.index t (1 : Fin 3) * 128 + p.val; omega
    | ⟨2, _⟩ => show win0_5.index t (2 : Fin 3) * 1024 + 1 * s.val = s.val; omega
  show k0_pay1 (k0_pay4 (iblk m c 0 t) (iblk m c 1 t) (iblk m c 2 t)) (ix3 u p s)
    = weightsIn m c (((cfg0.win 5).blk t).view.emb (ix3 u p s))
  rw [hemb]
  exact weights_of_tile (iblk m c 0 t) (iblk m c 1 t) (iblk m c 2 t) _ _ _ ⟨_, hb⟩ (tileRow ⟨_, hj⟩)
    (queries_at m c t ⟨_, hb⟩ ⟨_, hj⟩ rfl rfl) (contexts_at m c t ⟨_, hb⟩ rfl) (win_at m c t) u p s

/-- What a point writes back to the outputs' array is its block of the batch's outputs. -/
theorem flushed_outputs (c : Dev nD) (t : Fin cfg0.N) :
    (dats m 0 c).flushed 4 t = ((cfg0.win 4).blk t).view.read (Elt Ideal) (outputsIn m c) := by
  show (cfg0.win 4).cut (grid0.coords t) ((dats m 0 c).after 4 t) = _
  rw [after0_4]
  unfold out0_4
  rw [View.canon_unit_zero hz3]
  simp only [View.ld_unit_zero (S := S1x128x1024) hz3, View.ld_unit_zero (S := S1x1024x1024) hz3, View.ld_unit_zero (S := S1024x1024) hz2,
    View.ld_unit_zero (S := S1024x2048) hz2]
  obtain ⟨-, -, -, -, -, -, -, -, -, -, g0, g1, g2, hb, hj, h2⟩ := idx_facts t
  funext y
  obtain ⟨u, p, q, rfl⟩ : ∃ (u : Fin 1) (p : Fin 128) (q : Fin 1024), y = ix3 u p q := ⟨y 0, y 1, y 2, eq_ix3 y⟩
  have hu : u.val = 0 := by have := u.isLt; omega
  have hemb : ((cfg0.win 4).blk t).view.emb (ix3 u p q)
      = ix3 (⟨win0_5.index t (0 : Fin 3), hb⟩ : Fin 32) (tileRow ⟨win0_5.index t (1 : Fin 3), hj⟩ p) q := by
    funext a
    apply Fin.ext
    match a with
    | ⟨0, _⟩ => show win0_4.index t (0 : Fin 3) * 1 + 1 * u.val = win0_5.index t (0 : Fin 3); omega
    | ⟨1, _⟩ => show win0_4.index t (1 : Fin 3) * 128 + 1 * p.val = win0_5.index t (1 : Fin 3) * 128 + p.val; omega
    | ⟨2, _⟩ => show win0_4.index t (2 : Fin 3) * 1024 + 1 * q.val = q.val; omega
  show k0_pay5 (iblk m c 0 t) (iblk m c 1 t) (iblk m c 2 t) (iblk m c 3 t) (ix3 u p q)
    = outputsIn m c (((cfg0.win 4).blk t).view.emb (ix3 u p q))
  rw [hemb]
  exact outputs_of_tile (iblk m c 0 t) (iblk m c 1 t) (iblk m c 2 t) (iblk m c 3 t) _ _ _ _ ⟨_, hb⟩ (tileRow ⟨_, hj⟩)
    (queries_at m c t ⟨_, hb⟩ ⟨_, hj⟩ rfl rfl) (contexts_at m c t ⟨_, hb⟩ rfl) (win_at m c t) (wout_at m c t) u p q

/-- An index of the weights' array is in a point's block iff each coordinate is in the block's range. -/
theorem mem_block_weights (t : Fin cfg0.N) (i : S32x512x1024.Idx) :
    i ∈ ((cfg0.win 5).blk t).view.set ↔ ∀ a : Fin 3, win0_5.index t a * S1x128x1024.size a ≤ (i a).val
      ∧ (i a).val < win0_5.index t a * S1x128x1024.size a + S1x128x1024.size a := by
  show i ∈ ((View.whole main_v2_1).slice (win0_5.rect t)).set ↔ _
  rw [View.set_slice_whole, Rect.mem_set_unit]
  exact Iff.rfl

theorem mem_block_outputs (t : Fin cfg0.N) (i : S32x512x1024.Idx) :
    i ∈ ((cfg0.win 4).blk t).view.set ↔ ∀ a : Fin 3, win0_4.index t a * S1x128x1024.size a ≤ (i a).val
      ∧ (i a).val < win0_4.index t a * S1x128x1024.size a + S1x128x1024.size a := by
  show i ∈ ((View.whole main_v2_0).slice (win0_4.rect t)).set ↔ _
  rw [View.set_slice_whole, Rect.mem_set_unit]
  exact Iff.rfl

/-- Row r of batch entry b lies in the block of point (b, r / 128): the blocks tile the weights' array. -/
theorem cover_weights (i : S32x512x1024.Idx) :
    ∃ t : Fin cfg0.N, (cfg0.win 5).flush t = true ∧ i ∈ ((cfg0.win 5).blk t).view.set := by
  have h0 : (i 0).val < 32 := (i 0).isLt
  have h1 : (i 1).val < 512 := (i 1).isLt
  have h2 : (i 2).val < 1024 := (i 2).isLt
  obtain ⟨t, hb, hj⟩ := idx_onto ⟨(i 0).val, h0⟩ ⟨(i 1).val / 128, by omega⟩
  obtain ⟨-, -, -, -, -, -, -, -, -, -, -, -, -, -, -, e2⟩ := idx_facts t
  refine ⟨t, flush0_5 t, ?_⟩
  rw [mem_block_weights]
  intro a
  match a with
  | ⟨0, _⟩ => show win0_5.index t (0 : Fin 3) * 1 ≤ (i 0).val ∧ (i 0).val < win0_5.index t (0 : Fin 3) * 1 + 1
              have hb' : win0_5.index t (0 : Fin 3) = (i 0).val := hb
              omega
  | ⟨1, _⟩ => show win0_5.index t (1 : Fin 3) * 128 ≤ (i 1).val ∧ (i 1).val < win0_5.index t (1 : Fin 3) * 128 + 128
              have hj' : win0_5.index t (1 : Fin 3) = (i 1).val / 128 := hj
              omega
  | ⟨2, _⟩ => show win0_5.index t (2 : Fin 3) * 1024 ≤ (i 2).val ∧ (i 2).val < win0_5.index t (2 : Fin 3) * 1024 + 1024
              omega

/-- Likewise the outputs' array. -/
theorem cover_outputs (i : S32x512x1024.Idx) :
    ∃ t : Fin cfg0.N, (cfg0.win 4).flush t = true ∧ i ∈ ((cfg0.win 4).blk t).view.set := by
  have h0 : (i 0).val < 32 := (i 0).isLt
  have h1 : (i 1).val < 512 := (i 1).isLt
  have h2 : (i 2).val < 1024 := (i 2).isLt
  obtain ⟨t, hb, hj⟩ := idx_onto ⟨(i 0).val, h0⟩ ⟨(i 1).val / 128, by omega⟩
  obtain ⟨-, -, -, -, -, -, -, -, -, -, g0, g1, g2, -, -, -⟩ := idx_facts t
  refine ⟨t, flush0_4 t, ?_⟩
  rw [mem_block_outputs]
  intro a
  match a with
  | ⟨0, _⟩ => show win0_4.index t (0 : Fin 3) * 1 ≤ (i 0).val ∧ (i 0).val < win0_4.index t (0 : Fin 3) * 1 + 1
              have hb' : win0_5.index t (0 : Fin 3) = (i 0).val := hb
              omega
  | ⟨1, _⟩ => show win0_4.index t (1 : Fin 3) * 128 ≤ (i 1).val ∧ (i 1).val < win0_4.index t (1 : Fin 3) * 128 + 128
              have hj' : win0_5.index t (1 : Fin 3) = (i 1).val / 128 := hj
              omega
  | ⟨2, _⟩ => show win0_4.index t (2 : Fin 3) * 1024 ≤ (i 2).val ∧ (i 2).val < win0_4.index t (2 : Fin 3) * 1024 + 1024
              omega

/-- After the region the weights' array is the batch's weights. -/
theorem final_weights (c : Dev nD) : (dats m 0 c).arrAt 5 cfg0.N = weightsIn m c :=
  (dats m 0 c).arrAt_eq_of_cover 5 (weightsIn m c) (fun t _ => flushed_weights m c t) cover_weights

/-- After the region the outputs' array is the batch's outputs. -/
theorem final_outputs (c : Dev nD) : (dats m 0 c).arrAt 4 cfg0.N = outputsIn m c :=
  (dats m 0 c).arrAt_eq_of_cover 4 (outputsIn m c) (fun t _ => flushed_outputs m c t) cover_outputs

end Run

/-! ## The program's results -/

section Results

variable (m : (ℓ : Loc nD τ sig) → Buf (Elt Ideal) ℓ) (ρ : Dev nD → PrngReg)

/-- The first result: the outputs' array with its first two axes exchanged. -/
theorem result_outputs (c : Dev nD) :
    Pipeline.afterTail₀ cfgs (dats m) 0 (V0 m) [hostOps1] c main_v3
      = transpose S512x32x1024 [1, 0, 2] (outputsIn m c) transposes_S32x512x1024_S512x32x1024_1_0_2 := by
  unfold Pipeline.afterTail₀
  show StableHlo.after hostOps1 _ (Proc.devRef .tc main_v3) = _
  after_results
  exact congrArg (fun a => transpose S512x32x1024 [1, 0, 2] a transposes_S32x512x1024_S512x32x1024_1_0_2)
    ((Pipeline.withArrays_arr spec0 launch0.win.arr_inj c _ _ 4).trans (final_outputs m c))

/-- The second result: the weights' array with its first two axes exchanged. -/
theorem result_weights (c : Dev nD) :
    Pipeline.afterTail₀ cfgs (dats m) 0 (V0 m) [hostOps1] c main_v4
      = transpose S512x32x1024 [1, 0, 2] (weightsIn m c) transposes_S32x512x1024_S512x32x1024_1_0_2 := by
  unfold Pipeline.afterTail₀
  show StableHlo.after hostOps1 _ (Proc.devRef .tc main_v4) = _
  after_results
  exact congrArg (fun a => transpose S512x32x1024 [1, 0, 2] a transposes_S32x512x1024_S512x32x1024_1_0_2)
    ((Pipeline.withArrays_arr spec0 launch0.win.arr_inj c _ _ 5).trans (final_weights m c))

/-- The region finds the input weights as launched: the change of float format before it changes no number. -/
theorem V_win (c : Dev nD) :
    (V m c main_v0 : S1024x1024.Idx → EReal) = (m ((c : Thread nD τ).loc main_arg2) : S1024x1024.Idx → EReal) := by
  show StableHlo.after hostOps0 (fun b => m (c, b)) (Proc.devRef .tc main_v0) = _
  after_results
  rfl

/-- Likewise the output weights. -/
theorem V_wout (c : Dev nD) :
    (V m c main_v1 : S1024x2048.Idx → EReal) = (m ((c : Thread nD τ).loc main_arg3) : S1024x2048.Idx → EReal) := by
  show StableHlo.after hostOps0 (fun b => m (c, b)) (Proc.devRef .tc main_v1) = _
  after_results
  rfl

/-- The batch's weights of the arrays as the region finds them are those of the launch arguments. -/
theorem weightsIn_eq (c : Dev nD) : weightsIn m c
    = weights (m ((c : Thread nD τ).loc main_arg0) : S32x512x1024.Idx → EReal) (m ((c : Thread nD τ).loc main_arg1) : S32x1024x1024.Idx → EReal)
        (m ((c : Thread nD τ).loc main_arg2) : S1024x1024.Idx → EReal) := by
  unfold weightsIn
  rw [V_win, V_main_arg0, V_main_arg1]

/-- Likewise the batch's outputs. -/
theorem outputsIn_eq (c : Dev nD) : outputsIn m c
    = outputs (m ((c : Thread nD τ).loc main_arg0) : S32x512x1024.Idx → EReal) (m ((c : Thread nD τ).loc main_arg1) : S32x1024x1024.Idx → EReal)
        (m ((c : Thread nD τ).loc main_arg2) : S1024x1024.Idx → EReal) (m ((c : Thread nD τ).loc main_arg3) : S1024x2048.Idx → EReal) := by
  unfold outputsIn
  rw [V_win, V_wout, V_main_arg0, V_main_arg1]

/-- The run, read: every weakly fair execution ends with the two results at the batch's outputs and weights of the launch
    arguments, first two axes exchanged, and the arguments unchanged. -/
theorem run : θ_run defs (onTc (τ := τ) (main (F := Ideal))) ⟨m, fun _ => 0, ρ⟩ fun r => ∀ c : Dev nD,
      r.2.mem ((c.tc : Thread nD τ).loc main_v3)
        = transpose S512x32x1024 [1, 0, 2] (outputs (m ((c : Thread nD τ).loc main_arg0) : S32x512x1024.Idx → EReal)
            (m ((c : Thread nD τ).loc main_arg1) : S32x1024x1024.Idx → EReal) (m ((c : Thread nD τ).loc main_arg2) : S1024x1024.Idx → EReal)
            (m ((c : Thread nD τ).loc main_arg3) : S1024x2048.Idx → EReal)) transposes_S32x512x1024_S512x32x1024_1_0_2
      ∧ r.2.mem ((c.tc : Thread nD τ).loc main_v4)
        = transpose S512x32x1024 [1, 0, 2] (weights (m ((c : Thread nD τ).loc main_arg0) : S32x512x1024.Idx → EReal)
            (m ((c : Thread nD τ).loc main_arg1) : S32x1024x1024.Idx → EReal) (m ((c : Thread nD τ).loc main_arg2) : S1024x1024.Idx → EReal))
            transposes_S32x512x1024_S512x32x1024_1_0_2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(((h c).2 main_v3 (Pipeline.mem_restRefs_of main_v3 (by decide) (by decide))).trans (result_outputs m c)).trans
        (congrArg (fun a => transpose S512x32x1024 [1, 0, 2] a transposes_S32x512x1024_S512x32x1024_1_0_2) (outputsIn_eq m c)),
      (((h c).2 main_v4 (Pipeline.mem_restRefs_of main_v4 (by decide) (by decide))).trans (result_weights m c)).trans
        (congrArg (fun a => transpose S512x32x1024 [1, 0, 2] a transposes_S32x512x1024_S512x32x1024_1_0_2) (weightsIn_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Results

end Cert.KernelIdeal.Arrays

end
-- ==== Proof.lean ====
/-
  Luong "general" attention, a batch of 32 sequences of 512 queries against 1024 source positions of width 1024: the
  tiled kernel and the plain reference compute the same two arrays over the extended reals.

  For a query row x, with input weights W_in, the batch entry's context vectors c_s and output weights W_out, both
  programs form  h = W_in x,  the scores  a_s = ⟨h, c_s⟩,  the softmax weights  w_s = exp (a_s − max a) / ∑ exp (a − max a)
  (the maximum started from −∞ and joined with −∞ once more, on both sides alike),  the average  c̄ = ∑ w_s c_s,  and
  the output  tanh (W_out [c̄ ; x]);  they return the outputs and the weights with the batch and query axes exchanged.
  The kernel does this for 128 query rows at a time with the batch entry's context vectors whole, and its changes of
  float format are the identity on the extended reals, so row by row it is the same chain of sums, one maximum, one
  exponential, one quotient and one hyperbolic tangent as the reference: `AttentionRow` states that chain once,
  `KernelRows` and `ReferenceRows` identify each program's values with it, `KernelArrays` lays the tiles out into the
  whole arrays and reads the kernel program's run. No law of arithmetic beyond re-indexing sums is used, so the
  finiteness of the inputs is never opened. The idealized kernel is the printed kernel's own text (no rewrite was
  applied), so that it is a sanctioned idealization holds trivially; the three programs run and leave their arguments
  unchanged by the generated frames and the reference's generated run.
-/
import proofs.«157884_j1580547969021_1_alg».proof.Defs
import proofs.«157884_j1580547969021_1_alg».proof.Proof.Gen.Kernel
import proofs.«157884_j1580547969021_1_alg».proof.Proof.Gen.Kernel.Skeleton
import proofs.«157884_j1580547969021_1_alg».proof.Proof.Gen.Kernel.Launch
import proofs.«157884_j1580547969021_1_alg».proof.Proof.Gen.Kernel.Points
import proofs.«157884_j1580547969021_1_alg».proof.Proof.Gen.Kernel.Frame
import proofs.«157884_j1580547969021_1_alg».proof.Proof.Gen.KernelIdeal
import proofs.«157884_j1580547969021_1_alg».proof.Proof.Gen.KernelIdeal.Skeleton
import proofs.«157884_j1580547969021_1_alg».proof.Proof.Gen.KernelIdeal.Launch
import proofs.«157884_j1580547969021_1_alg».proof.Proof.Gen.KernelIdeal.Points
import proofs.«157884_j1580547969021_1_alg».proof.Proof.Gen.KernelIdeal.Frame
import proofs.«157884_j1580547969021_1_alg».proof.Proof.Gen.ReferenceIdeal
import proofs.«157884_j1580547969021_1_alg».proof.Proof.Gen.ReferenceIdeal.Run
import proofs.«157884_j1580547969021_1_alg».proof.Proof.Gen.ReferenceIdeal.Read
import proofs.«157884_j1580547969021_1_alg».proof.Proof.Gen.Pre_finite_inputs
import proofs.«157884_j1580547969021_1_alg».proof.Proof.AttentionRow
import proofs.«157884_j1580547969021_1_alg».proof.Proof.ReferenceRows
import proofs.«157884_j1580547969021_1_alg».proof.Proof.KernelRows
import proofs.«157884_j1580547969021_1_alg».proof.Proof.KernelArrays
import Idealize.ShloMosaic.Adequacy
import Idealize.ShloMosaic.Init

noncomputable section

namespace Cert.Proof

open Idealize.ShloMosaic Idealize.ShloMosaic.TcCoe Idealize.SL.Sem

/-- The printed kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with what it says of the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealized kernel is the kernel's own text: nothing to preserve. -/
theorem preserves : Cert.preserves_Kernel_KernelIdeal := trivial

/-- From memories that agree on the four arguments both programs end with the batch's outputs and weights, batch and
    query axes exchanged: the kernel's run reads so, and each of the reference's two result terms is its last stage,
    which is the same function of the arguments. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v17_eq]
    unfold Cert.ReferenceIdeal.Read.val_main_v17
    rw [Cert.ReferenceIdeal.Rows.outputs_eq, (hagree c).1, (hagree c).2.1, (hagree c).2.2.1, (hagree c).2.2.2]
  · rw [Cert.ReferenceIdeal.Read.val_main_v18_eq]
    unfold Cert.ReferenceIdeal.Read.val_main_v18
    rw [Cert.ReferenceIdeal.Rows.weights_eq, (hagree c).1, (hagree c).2.1, (hagree c).2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
